-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x32x32 : Shape := ⟨4, ![32, 512, 32, 32]⟩
abbrev S32x512 : Shape := ⟨2, ![32, 512]⟩
abbrev S32 : Shape := ⟨1, ![32]⟩
abbrev S512x32 : Shape := ⟨2, ![512, 32]⟩
abbrev S512 : Shape := ⟨1, ![512]⟩
abbrev S_ : Shape := ⟨0, ![]⟩

class Facts : Prop where
  bcast_S_S32x512x32x32 : S_.BroadcastsInDim S32x512x32x32 (![] : Fin 0 → Fin S32x512x32x32.rank)
  reducesTo_S32x512x32x32_S_d0_1_2_3 : S32x512x32x32.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S512x32 : S_.BroadcastsInDim S512x32 (![] : Fin 0 → Fin S512x32.rank)
  reducesTo_S512x32_S_d0_1 : S512x32.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x32 1) : IVec S_ 1 :=
  let main_c_5 : IVec S_ 1 := constantI S_ 1 1#1
  let main_v17 : IVec S_ 1 := (fun x v => Host.reduce IntOp.andi x v reducesTo_S512x32_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S32x512x32x32 .f32) (main_arg1 : FVec F S32x512 .f32) (main_arg2 : FVec F S32 .f32) (main_arg3 : FVec F S512x32 .f32) (main_arg4 : FVec F S512 .f32) : IVec S_ 1 :=
  let main_v0 : FVec F S32x512x32x32 .f32 := Host.absf main_arg0
  let main_cst : FVec F S_ .f32 := constant S_ .f32 0x7F800000#32
  let main_v1 : FVec F S32x512x32x32 .f32 := broadcastInDim S32x512x32x32 ![] bcast_S_S32x512x32x32 main_cst
  let main_v2 : IVec S32x512x32x32 1 := cmpf .olt main_v0 main_v1
  let main_c : IVec S_ 1 := constantI S_ 1 1#1
  let main_v3 : IVec S_ 1 := (fun x v => Host.reduce IntOp.andi x v reducesTo_S32x512x32x32_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S512x32 .f32 := Host.absf main_arg3
  let main_cst_4 : FVec F S_ .f32 := constant S_ .f32 0x7F800000#32
  let main_v15 : FVec F S512x32 .f32 := broadcastInDim S512x32 ![] bcast_S_S512x32 main_cst_4
  let main_v16 : IVec S512x32 1 := cmpf .olt main_v14 main_v15
  fn_part1 (F := F) main_arg4 main_v13 main_v16
-- ==== Kernel.lean ====
abbrev S32x512x32x32 : Shape := ⟨4, ![32, 512, 32, 32]⟩
abbrev S32x512 : Shape := ⟨2, ![32, 512]⟩
abbrev S32 : Shape := ⟨1, ![32]⟩
abbrev S512x32 : Shape := ⟨2, ![512, 32]⟩
abbrev S512 : Shape := ⟨1, ![512]⟩
abbrev S16384x1024 : Shape := ⟨2, ![16384, 1024]⟩
abbrev S32x1 : Shape := ⟨2, ![32, 1]⟩
abbrev S512x1 : Shape := ⟨2, ![512, 1]⟩
abbrev S512x1024 : Shape := ⟨2, ![512, 1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S32x512x32x32, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S512, .f32⟩
  | .hbm, ⟨5, _⟩ => ⟨S16384x1024, .f32⟩
  | .hbm, ⟨6, _⟩ => ⟨S32x1, .f32⟩
  | .hbm, ⟨7, _⟩ => ⟨S512x1, .f32⟩
  | .hbm, ⟨8, _⟩ => ⟨S16384x1024, .f32⟩
  | .hbm, ⟨9, _⟩ => ⟨S32x512x32x32, .f32⟩
  | .local _ .vmem, ⟨0, _⟩ => ⟨S512x1024, .f32⟩
  | .local _ .vmem, ⟨1, _⟩ => ⟨S512x1024, .f32⟩
  | .local _ .vmem, ⟨2, _⟩ => ⟨S32x512, .f32⟩
  | .local _ .vmem, ⟨3, _⟩ => ⟨S32x1, .f32⟩
  | .local _ .vmem, ⟨4, _⟩ => ⟨S512x32, .f32⟩
  | .local _ .vmem, ⟨5, _⟩ => ⟨S512x1, .f32⟩
  | .local _ .vmem, ⟨6, _⟩ => ⟨S512x1024, .f32⟩
  | .local _ .vmem, ⟨7, _⟩ => ⟨S512x1024, .f32⟩
  | _, _ => ⟨S32x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x512x32x32_S16384x1024 : S32x512x32x32.ShapeCasts S16384x1024
  shapeCasts_S32_S32x1 : S32.ShapeCasts S32x1
  shapeCasts_S512_S512x1 : S512.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S32x512_S32x512_0_0 : ∀ a, (![0, 0] : Fin 2 → Nat) a + S32x512.size a ≤ S32x512.size a
  h_S32x512 : 0 < S32x512.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S512x32_S512x32_0_0 : ∀ a, (![0, 0] : Fin 2 → Nat) a + S512x32.size a ≤ S512x32.size a
  h_S512x32 : 0 < S512x32.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  shapeCasts_S16384x1024_S32x512x32x32 : S16384x1024.ShapeCasts S32x512x32x32
  dot_S512x1024_S1024x1_S512x1_1_0_0_1_n_n_wf : DotDims.WF S512x1024 S1024x1 S512x1 [1] [0] [0] [1] [] []
  dot_S32x512_S512x1_S32x1_1_0_0_1_n_n_wf : DotDims.WF S32x512 S512x1 S32x1 [1] [0] [0] [1] [] []
  dot_S512x32_S32x1_S512x1_1_0_0_1_n_n_wf : DotDims.WF S512x32 S32x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S512x32.size a
  hwx0_3 : ∀ i : grid0.Coords, EltTy.bits .f32 = 32 ∨ (Rect.block (s := S512x32) S512x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .f32 = 32 ∨ (Rect.block (s := S512x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)

variable [Facts₀]

def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf
def dot_S32x512_S512x1_S32x1_1_0_0_1_n_n : DotDims S32x512 S512x1 S32x1 where
  lhsContracting := [1]
  rhsContracting := [0]
  lhsNonContracting := [0]
  rhsNonContracting := [1]
  lhsBatch := []
  rhsBatch := []
  wf := dot_S32x512_S512x1_S32x1_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x512x32x32 : Shape := ⟨4, ![32, 512, 32, 32]⟩
abbrev S32x512 : Shape := ⟨2, ![32, 512]⟩
abbrev S32 : Shape := ⟨1, ![32]⟩
abbrev S512x32 : Shape := ⟨2, ![512, 32]⟩
abbrev S512 : Shape := ⟨1, ![512]⟩
abbrev S32x512x1024 : Shape := ⟨3, ![32, 512, 1024]⟩
abbrev S1x32 : Shape := ⟨2, ![1, 32]⟩
abbrev S1x512 : Shape := ⟨2, ![1, 512]⟩
abbrev S1x512x1024 : Shape := ⟨3, ![1, 512, 1024]⟩
abbrev S1x512x1 : Shape := ⟨3, ![1, 512, 1]⟩

abbrev nBuf : Space → Nat
  | .hbm => 12
  | .vmem => 8
  | .smem => 0
  | _ => 0

abbrev bufTy : (tb : Table) → Fin (tcTables nBuf tb) → BufTy
  | .hbm, ⟨0, _⟩ => ⟨S32x512x32x32, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S512, .f32⟩
  | .hbm, ⟨5, _⟩ => ⟨S32x512x1024, .f32⟩
  | .hbm, ⟨6, _⟩ => ⟨S512x32, .f32⟩
  | .hbm, ⟨7, _⟩ => ⟨S32x512, .f32⟩
  | .hbm, ⟨8, _⟩ => ⟨S1x32, .f32⟩
  | .hbm, ⟨9, _⟩ => ⟨S1x512, .f32⟩
  | .hbm, ⟨10, _⟩ => ⟨S32x512x1024, .f32⟩
  | .hbm, ⟨11, _⟩ => ⟨S32x512x32x32, .f32⟩
  | .local _ .vmem, ⟨0, _⟩ => ⟨S1x512x1024, .f32⟩
  | .local _ .vmem, ⟨1, _⟩ => ⟨S1x512x1024, .f32⟩
  | .local _ .vmem, ⟨2, _⟩ => ⟨S512x32, .f32⟩
  | .local _ .vmem, ⟨3, _⟩ => ⟨S1x32, .f32⟩
  | .local _ .vmem, ⟨4, _⟩ => ⟨S32x512, .f32⟩
  | .local _ .vmem, ⟨5, _⟩ => ⟨S1x512, .f32⟩
  | .local _ .vmem, ⟨6, _⟩ => ⟨S1x512x1024, .f32⟩
  | .local _ .vmem, ⟨7, _⟩ => ⟨S1x512x1024, .f32⟩
  | _, _ => ⟨S32x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x512x32x32_S32x512x1024 : S32x512x32x32.ShapeCasts S32x512x1024
  transposes_S32x512_S512x32_1_0 : S32x512.Transposes [1, 0] S512x32
  transposes_S512x32_S32x512_1_0 : S512x32.Transposes [1, 0] S32x512
  shapeCasts_S32_S1x32 : S32.ShapeCasts S1x32
  shapeCasts_S512_S1x512 : S512.ShapeCasts S1x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  reduces_S1x512x1024_S1x512 : S1x512x1024.Reduces [2] S1x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x512x1 : S1x512.ShapeCasts S1x512x1
  broadcasts_S1x512x1_S1x512x1024 : S1x512x1.Broadcasts S1x512x1024
  shapeCasts_S32x512x1024_S32x512x32x32 : S32x512x1024.ShapeCasts S32x512x32x32
  dot_S1x512_S512x32_S1x32_1_0_0_1_n_n_wf : DotDims.WF S1x512 S512x32 S1x32 [1] [0] [0] [1] [] []
  dot_S1x32_S32x512_S1x512_1_0_0_1_n_n_wf : DotDims.WF S1x32 S32x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x512x1024.size a
  hwx0_0 : ∀ i : grid0.Coords, EltTy.bits .f32 = 32 ∨ (Rect.block (s := S32x512x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x512.size a
  hwx0_3 : ∀ i : grid0.Coords, EltTy.bits .f32 = 32 ∨ (Rect.block (s := S32x512) S32x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S32x512x1024.size a
  hwx0_5 : ∀ i : grid0.Coords, EltTy.bits .f32 = 32 ∨ (Rect.block (s := S32x512x1024) S1x512x1024.size (cc0_transform_5 i) (hinb0_5 i)).WholeWords (EltTy.packing .f32)

variable [Facts₀]

def dot_S1x512_S512x32_S1x32_1_0_0_1_n_n : DotDims S1x512 S512x32 S1x32 where
  lhsContracting := [1]
  rhsContracting := [0]
  lhsNonContracting := [0]
  rhsNonContracting := [1]
  lhsBatch := []
  rhsBatch := []
  wf := dot_S1x512_S512x32_S1x32_1_0_0_1_n_n_wf
def dot_S1x32_S32x512_S1x512_1_0_0_1_n_n : DotDims S1x32 S32x512 S1x512 where
  lhsContracting := [1]
  rhsContracting := [0]
  lhsNonContracting := [0]
  rhsNonContracting := [1]
  lhsBatch := []
  rhsBatch := []
  wf := dot_S1x32_S32x512_S1x512_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.SqueezeExcite.lean ====
/-
  Squeeze-and-excitation of one image, over the extended reals.

  An image is a C × P table x (C channels, P pixels).  The squeeze is the scaled pixel total of each channel,
  s(c) = Σₚ x(c, p) · a for a fixed scale a (the reciprocal of the pixel count).  The excitation is a two-layer
  perceptron on s: r(j) = max(Σ_c w₁(j, c) · s(c) + b₁(j), z) with the threshold z (zero), then
  g(c) = σ(Σⱼ w₂(c, j) · r(j) + b₂(c)) with σ the logistic function.  The result rescales every pixel of channel c
  by its gate: y(c, p) = x(c, p) · g(c).

  The squeeze can be computed in two ways: scale every pixel and add (Σₚ x(c, p) · a), or add and scale the total
  ((Σₚ x(c, p)) · a).  On the extended reals multiplication by a FINITE NONNEGATIVE a distributes over every sum,
  infinite summands included (⊥ absorbs a sum on both sides, and otherwise ⊤ does), so the two agree for every
  image; this is the one algebraic law between the two programs compared here.  A product of two factors may be
  written in either order.

  The last section reads a whole batch of images, stored as an N × C × H × W array, one image at a time: pixel
  p of an image is the entry (p / W, p % W) of its H × W plane.
-/
import Idealize.ShloMosaic.PureOps.Ideal
import Idealize.ShloMosaic.PureOps.Ideal.Laws
import Idealize.ShloMosaic.Lib.ValueIdx

noncomputable section

namespace Cert.SqueezeExcite

open Idealize.ShloMosaic Idealize.ShloMosaic.ValueIdx

/-! ## One image -/

section Image

variable {ι κ μ : Type} [Fintype ι] [Fintype κ] [Fintype μ]

/-- The squeeze with every pixel scaled before the sum: s(c) = Σₚ x(c, p) · a. -/
def squeezeScaled (a : EReal) (x : ι → κ → EReal) (c : ι) : EReal := ∑ p, x c p * a

/-- The squeeze with the pixel total scaled after the sum: s(c) = (Σₚ x(c, p)) · a. -/
def squeezeTotal (a : EReal) (x : ι → κ → EReal) (c : ι) : EReal := (∑ p, x c p) * a

/-- The hidden layer: r(j) = max(Σ_c w₁(j, c) · s(c) + b₁(j), z). -/
def hidden (z : EReal) (s : ι → EReal) (w1 : μ → ι → EReal) (b1 : μ → EReal) (j : μ) : EReal :=
  max ((∑ c, w1 j c * s c) + b1 j) z

/-- The gate: g(c) = σ(Σⱼ w₂(c, j) · r(j) + b₂(c)). -/
def gate (r : μ → EReal) (w2 : ι → μ → EReal) (b2 : ι → EReal) (c : ι) : EReal :=
  Ideal.logistic ((∑ j, w2 c j * r j) + b2 c)

/-- The rescaled image from a given squeeze: y(c, p) = x(c, p) · g(c). -/
def rescale (z : EReal) (s : ι → EReal) (x : ι → κ → EReal) (w1 : μ → ι → EReal) (b1 : μ → EReal)
    (w2 : ι → μ → EReal) (b2 : ι → EReal) (c : ι) (p : κ) : EReal :=
  x c p * gate (hidden z s w1 b1) w2 b2 c

/-- The block with the squeeze scaled pixel by pixel. -/
def blockScaled (a z : EReal) (x : ι → κ → EReal) (w1 : μ → ι → EReal) (b1 : μ → EReal)
    (w2 : ι → μ → EReal) (b2 : ι → EReal) : ι → κ → EReal :=
  rescale z (squeezeScaled a x) x w1 b1 w2 b2

/-- The block with the squeeze scaled after the sum. -/
def blockTotal (a z : EReal) (x : ι → κ → EReal) (w1 : μ → ι → EReal) (b1 : μ → EReal)
    (w2 : ι → μ → EReal) (b2 : ι → EReal) : ι → κ → EReal :=
  rescale z (squeezeTotal a x) x w1 b1 w2 b2

/-- Multiplication by a finite nonnegative factor distributes over any finite sum of extended reals. -/
theorem sum_mul_of_nonneg_of_ne_top {α : Type} (t : Finset α) (f : α → EReal) {a : EReal} (h0 : 0 ≤ a) (ht : a ≠ ⊤) :
    (∑ p ∈ t, f p) * a = ∑ p ∈ t, f p * a := by
  classical
  induction t using Finset.induction_on with
  | empty => simp
  | insert q t hq ih =>
    rw [Finset.sum_insert hq, Finset.sum_insert hq, EReal.right_distrib_of_nonneg_of_ne_top h0 ht, ih]

/-- The two squeezes agree when the scale is finite and nonnegative. -/
theorem squeezeTotal_eq_squeezeScaled {a : EReal} (h0 : 0 ≤ a) (ht : a ≠ ⊤) (x : ι → κ → EReal) :
    squeezeTotal a x = squeezeScaled a x :=
  funext fun c => sum_mul_of_nonneg_of_ne_top Finset.univ (x c) h0 ht

/-- So the two blocks agree. -/
theorem blockTotal_eq_blockScaled {a : EReal} (h0 : 0 ≤ a) (ht : a ≠ ⊤) (z : EReal) (x : ι → κ → EReal)
    (w1 : μ → ι → EReal) (b1 : μ → EReal) (w2 : ι → μ → EReal) (b2 : ι → EReal) :
    blockTotal a z x w1 b1 w2 b2 = blockScaled a z x w1 b1 w2 b2 := by
  unfold blockTotal blockScaled
  rw [squeezeTotal_eq_squeezeScaled h0 ht]

end Image

/-! ## The scale -/

/-- The scale 2⁻¹⁰, the reciprocal of the pixel count 1024, as a single-precision word. -/
abbrev invPixels : EReal := Ideal.ofBits .f32 0x3A800000#32

/-- The threshold of the hidden layer: the single-precision zero word. -/
abbrev floor0 : EReal := Ideal.ofBits .f32 0x00000000#32

theorem invPixels_eq : invPixels = ((1 / 1024 : ℝ) : EReal) := by
  simp [invPixels, Ideal.ofBits, Ideal.ieee, -EReal.coe_mul]; norm_num

theorem invPixels_nonneg : 0 ≤ invPixels := by
  rw [invPixels_eq]; exact EReal.coe_nonneg.mpr (by norm_num)

theorem invPixels_ne_top : invPixels ≠ ⊤ := by
  rw [invPixels_eq]; exact EReal.coe_ne_top _

/-! ## A batch of images stored as N × C × H × W -/

/-- The batch's shape: 32 images, 512 channels, 32 × 32 pixels. -/
abbrev Batch : Shape := ⟨4, ![32, 512, 32, 32]⟩

/-- Pixel p of a plane is its entry (p / 32, p % 32). -/
abbrev pixRow (p : Fin 1024) : Fin 32 := ⟨p.val / 32, by have := p.isLt; omega⟩
abbrev pixCol (p : Fin 1024) : Fin 32 := ⟨p.val % 32, by omega⟩
/-- Entry (h, w) of a plane is its pixel h · 32 + w. -/
abbrev pixel (h w : Fin 32) : Fin 1024 := ⟨h.val * 32 + w.val, by have := h.isLt; have := w.isLt; omega⟩

/-- Image n of the batch as a channels × pixels table. -/
def image (X : Batch.Idx → EReal) (n : Fin 32) : Fin 512 → Fin 1024 → EReal :=
  fun c p => X (ix4 n c (pixRow p) (pixCol p))

/-- The weights and biases as tables. -/
def table2 {a b : Nat} (W : (⟨2, ![a, b]⟩ : Shape).Idx → EReal) : Fin a → Fin b → EReal := fun i j => W (ix2 i j)
def table1 {a : Nat} (B : (⟨1, ![a]⟩ : Shape).Idx → EReal) : Fin a → EReal := fun i => B (ix1 i)

/-- The whole result with the squeeze scaled pixel by pixel: entry (n, c, h, w) is pixel h · 32 + w of channel c of
    the block of image n. -/
def resultScaled (X : Batch.Idx → EReal) (W1 : (⟨2, ![32, 512]⟩ : Shape).Idx → EReal) (B1 : (⟨1, ![32]⟩ : Shape).Idx → EReal)
    (W2 : (⟨2, ![512, 32]⟩ : Shape).Idx → EReal) (B2 : (⟨1, ![512]⟩ : Shape).Idx → EReal) : Batch.Idx → EReal :=
  fun i => blockScaled invPixels floor0 (image X (i 0)) (table2 W1) (table1 B1) (table2 W2) (table1 B2) (i 1) (pixel (i 2) (i 3))

/-- The whole result with the squeeze scaled after the sum. -/
def resultTotal (X : Batch.Idx → EReal) (W1 : (⟨2, ![32, 512]⟩ : Shape).Idx → EReal) (B1 : (⟨1, ![32]⟩ : Shape).Idx → EReal)
    (W2 : (⟨2, ![512, 32]⟩ : Shape).Idx → EReal) (B2 : (⟨1, ![512]⟩ : Shape).Idx → EReal) : Batch.Idx → EReal :=
  fun i => blockTotal invPixels floor0 (image X (i 0)) (table2 W1) (table1 B1) (table2 W2) (table1 B2) (i 1) (pixel (i 2) (i 3))

/-- The two results are one function of the inputs. -/
theorem resultTotal_eq_resultScaled (X : Batch.Idx → EReal) (W1 : (⟨2, ![32, 512]⟩ : Shape).Idx → EReal)
    (B1 : (⟨1, ![32]⟩ : Shape).Idx → EReal) (W2 : (⟨2, ![512, 32]⟩ : Shape).Idx → EReal)
    (B2 : (⟨1, ![512]⟩ : Shape).Idx → EReal) :
    resultTotal X W1 B1 W2 B2 = resultScaled X W1 B1 W2 B2 := by
  funext i
  unfold resultTotal resultScaled
  rw [blockTotal_eq_blockScaled invPixels_nonneg invPixels_ne_top]

end Cert.SqueezeExcite

end
-- ==== Proof.LibDotPlain.lean ====
/-
  The plain product of two matrices, read at one entry over the extended reals.

  A plain product of an M × K matrix by a K × N matrix has no batch axis; the left operand is contracted on its
  axis 1 and the right operand on its axis 0.  For the output entry (i, j) and the contraction position k, the left
  operand is read at (i, k) — its index keeps the output's row on axis 0 and takes the contraction position on
  axis 1 — and the right operand is read at (k, j) — its index takes the contraction position on axis 0 and keeps
  the output's column on axis 1.  The contraction has one axis, of extent K, so the sum over its index set is the sum
  over k < K.  Hence entry (i, j) of the product is Σₖ l(i, k) · r(k, j), both for the product a host program
  computes and for the product a kernel accumulates into a zero accumulator.  All of this holds for every M, K, N.
-/
import Idealize.ShloMosaic.PureOps.Ideal.Laws
import Idealize.ShloMosaic.Lib.ValueIdx

noncomputable section

namespace Cert.LibDot

open Idealize.ShloMosaic Idealize.ShloMosaic.ValueIdx

variable (M K N : Nat)

/-- Axis 0 of the left operand's index is the output's row. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- Axis 1 of the left operand's index is the contraction position. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- Axis 0 of the right operand's index is the contraction position. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Axis 1 of the right operand's index is the output's column. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- At output entry (i, j) and contraction position k the left operand is read at (i, k). -/
theorem lhsIdx_plain (i : Fin M) (j : Fin N) (k : Fin K) :
    (DotDims.plain M K N).lhsIdx (ix2 i j) ((contrEquiv1 (DotDims.plain M K N) K rfl rfl).symm k) = ix2 i k :=
  funext fun a => Fin.ext (by
    have hk := contrEquiv1_symm_val (DotDims.plain M K N) K rfl rfl k
    match a with
    | ⟨0, _⟩ => exact lhs_plain_0 M K N _ _
    | ⟨1, _⟩ => exact (lhs_plain_1 M K N _ _).trans hk)

/-- At output entry (i, j) and contraction position k the right operand is read at (k, j). -/
theorem rhsIdx_plain (i : Fin M) (j : Fin N) (k : Fin K) :
    (DotDims.plain M K N).rhsIdx (ix2 i j) ((contrEquiv1 (DotDims.plain M K N) K rfl rfl).symm k) = ix2 k j :=
  funext fun a => Fin.ext (by
    have hk := contrEquiv1_symm_val (DotDims.plain M K N) K rfl rfl k
    match a with
    | ⟨0, _⟩ => exact (rhs_plain_0 M K N _ _).trans hk
    | ⟨1, _⟩ => exact rhs_plain_1 M K N _ _)

/-- The sum over the plain product's contraction index set of the operands' products at entry (i, j) is
    Σₖ l(i, k) · r(k, j). -/
theorem sum_plain (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  refine Finset.sum_congr rfl fun k _ => ?_
  rw [lhsIdx_plain, rhsIdx_plain]

/-- Entry (i, j) of a host program's plain product: Σₖ l(i, k) · r(k, j). -/
theorem dg_plain {φ₁ φ₂ : FTy} (l : FVec Ideal ⟨2, ![M, K]⟩ φ₁) (r : FVec Ideal ⟨2, ![K, N]⟩ φ₂)
    (i : Fin M) (j : Fin N) :
    Host.dotGeneral (F := Ideal) (DotDims.plain M K N) none l r (ix2 i j)
      = ∑ k : Fin K, l (ix2 i k) * r (ix2 k j) :=
  (Ideal.dotGeneral_apply (DotDims.plain M K N) none .single l r _).trans (sum_plain M K N l r i j)

/-- Entry (i, j) of a kernel's plain product into a zero accumulator: Σₖ l(i, k) · r(k, j). -/
theorem mm_plain {φ₁ φ₂ : FTy} (l : FVec Ideal ⟨2, ![M, K]⟩ φ₁) (r : FVec Ideal ⟨2, ![K, N]⟩ φ₂)
    (i : Fin M) (j : Fin N) :
    matmul (DotDims.plain M K N) none l r (constant (F := Ideal) ⟨2, ![M, N]⟩ .f32 0x00000000#32) (ix2 i j)
      = ∑ k : Fin K, l (ix2 i k) * r (ix2 k j) :=
  (Ideal.matmul_constant_zero_apply (DotDims.plain M K N) none l r _).trans (sum_plain M K N l r i j)

end Cert.LibDot

end
-- ==== Proof.LibColumn.lean ====
/-
  A column kept after a sum over the last axis, read at an index.

  A length-a vector viewed as an a × 1 column reads, at (i, 0), the vector at i; an a × 1 column repeated along
  b columns reads, at (i, j), the column at (i, 0), whatever j. Together they say that a row total broadcast
  back over its row is that total at every column.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, q)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelPayload.lean ====
/-
  What one grid step of the fused row kernel stores, read at one entry.

  The step loads one image x (512 channels × 1024 pixels), the two weight tables and the two biases (the biases as
  columns), and stores x(c, p) · g(c).  Every product in the body is a plain matrix product into a zero
  accumulator: the squeeze is x times the constant column of 2⁻¹⁰, so its entry c is Σₚ x(c, p) · 2⁻¹⁰; the hidden
  layer is w₁ times that column plus b₁, floored at zero; the gate is the logistic of w₂ times the hidden column
  plus b₂; and the gate column is repeated along the pixels.  Entry (c, p) of the stored block is therefore the
  squeeze-and-excitation block with the squeeze scaled pixel by pixel.
-/
import proofs.«145145_g2000202709259100_pallasbulk_1026_2_alg».proof.Proof.Gen.KernelIdeal.Skeleton
import proofs.«145145_g2000202709259100_pallasbulk_1026_2_alg».proof.Proof.SqueezeExcite
import proofs.«145145_g2000202709259100_pallasbulk_1026_2_alg».proof.Proof.LibDotPlain
import proofs.«145145_g2000202709259100_pallasbulk_1026_2_alg».proof.Proof.LibColumn
import Idealize.ShloMosaic.Lib.Pipeline.Value
import Idealize.ShloMosaic.Lib.ValueIdx
import Idealize.ShloMosaic.PureOps.Ideal.Laws

noncomputable section

namespace Cert.KernelIdeal.SeValue

open Idealize.ShloMosaic Idealize.ShloMosaic.ValueIdx Cert.KernelIdeal Cert.KernelIdeal.Gen Cert.SqueezeExcite

/-- The three contractions of the body are plain matrix products. -/
theorem dotSqueeze_eq : dot_S512x1024_S1024x1_S512x1_1_0_0_1_n_n = DotDims.plain 512 1024 1 := rfl
theorem dotHidden_eq : dot_S32x512_S512x1_S32x1_1_0_0_1_n_n = DotDims.plain 32 512 1 := rfl
theorem dotGate_eq : dot_S512x32_S32x1_S512x1_1_0_0_1_n_n = DotDims.plain 512 32 1 := rfl

/-- A bias column as a table of one index. -/
def column {a : Nat} (B : (⟨2, ![a, 1]⟩ : Shape).Idx → EReal) : Fin a → EReal := fun i => B (ix2 i (0 : Fin 1))

/-- Entry c of the squeeze column: Σₚ x(c, p) · 2⁻¹⁰. -/
theorem squeeze_col (x : FVec Ideal S512x1024 .f32) (c : Fin 512) :
    matmul (DotDims.plain 512 1024 1) none x (broadcast S1024x1 (Scalar.ofBits (F := Ideal) .f32 0x3A800000#32))
        (constant (F := Ideal) S512x1 .f32 0x00000000#32) (ix2 c (0 : Fin 1))
      = squeezeScaled invPixels (table2 x) c :=
  (Cert.LibDot.mm_plain 512 1024 1 x _ c 0).trans rfl

/-- Entry j of the hidden column: max(Σ_c w₁(j, c) · s(c) + b₁(j), 0). -/
theorem hidden_col (w1 : FVec Ideal S32x512 .f32) (s : FVec Ideal S512x1 .f32) (b1 : FVec Ideal S32x1 .f32) (j : Fin 32) :
    maximumf (addf (matmul (DotDims.plain 32 512 1) none w1 s (constant (F := Ideal) S32x1 .f32 0x00000000#32)) b1)
        (broadcast S32x1 (Scalar.ofBits (F := Ideal) .f32 0x00000000#32)) (ix2 j (0 : Fin 1))
      = hidden floor0 (column s) (table2 w1) (column b1) j := by
  show max (matmul (DotDims.plain 32 512 1) none w1 s (constant (F := Ideal) S32x1 .f32 0x00000000#32) (ix2 j (0 : Fin 1)) + b1 (ix2 j (0 : Fin 1))) floor0 = _
  rw [Cert.LibDot.mm_plain 32 512 1 w1 s j 0]
  rfl

/-- Entry c of the gate column: σ(Σⱼ w₂(c, j) · r(j) + b₂(c)). -/
theorem gate_col (w2 : FVec Ideal S512x32 .f32) (r : FVec Ideal S32x1 .f32) (b2 : FVec Ideal S512x1 .f32) (c : Fin 512) :
    logistic (addf (matmul (DotDims.plain 512 32 1) none w2 r (constant (F := Ideal) S512x1 .f32 0x00000000#32)) b2) (ix2 c (0 : Fin 1))
      = gate (column r) (table2 w2) (column b2) c := by
  show Ideal.logistic (matmul (DotDims.plain 512 32 1) none w2 r (constant (F := Ideal) S512x1 .f32 0x00000000#32) (ix2 c (0 : Fin 1)) + b2 (ix2 c (0 : Fin 1))) = _
  rw [Cert.LibDot.mm_plain 512 32 1 w2 r c 0]
  rfl

/-- Entry (c, p) of what the step stores is the squeeze-and-excitation block of the loaded image. -/
theorem stored_apply (x : FVec Ideal S512x1024 .f32) (w1 : FVec Ideal S32x512 .f32) (b1 : FVec Ideal S32x1 .f32)
    (w2 : FVec Ideal S512x32 .f32) (b2 : FVec Ideal S512x1 .f32) (c : Fin 512) (p : Fin 1024) :
    k0_pay1 (F := Ideal) x w1 b1 w2 b2 (ix2 c p)
      = blockScaled invPixels floor0 (table2 x) (table2 w1) (column b1) (table2 w2) (column b2) c p := by
  unfold k0_pay1
  simp only [shapeCast_self]
  rw [dotSqueeze_eq, dotHidden_eq, dotGate_eq]
  refine (mulf_apply _ _ _).trans ?_
  rw [Cert.LibColumn.broadcastTo_a1_ab_apply, gate_col]
  have hs : column (matmul (DotDims.plain 512 1024 1) none x (broadcast S1024x1 (Scalar.ofBits (F := Ideal) .f32 0x3A800000#32))
        (constant (F := Ideal) S512x1 .f32 0x00000000#32)) = squeezeScaled invPixels (table2 x) :=
    funext fun c' => squeeze_col x c'
  have hr : column (maximumf (addf (matmul (DotDims.plain 32 512 1) none w1
        (matmul (DotDims.plain 512 1024 1) none x (broadcast S1024x1 (Scalar.ofBits (F := Ideal) .f32 0x3A800000#32))
          (constant (F := Ideal) S512x1 .f32 0x00000000#32)) (constant (F := Ideal) S32x1 .f32 0x00000000#32)) b1)
        (broadcast S32x1 (Scalar.ofBits (F := Ideal) .f32 0x00000000#32)))
      = hidden floor0 (squeezeScaled invPixels (table2 x)) (table2 w1) (column b1) :=
    funext fun j => (hidden_col w1 _ b1 j).trans (by rw [hs])
  rw [hr]
  rfl

end Cert.KernelIdeal.SeValue

end
-- ==== Proof.KernelRegion.lean ====
/-
  What the fused row kernel's output array holds after all 32 grid steps.

  The kernel sees the batch as a 16384 × 1024 table: row n · 512 + c is channel c of image n.  Step t loads rows
  t · 512 … t · 512 + 511 (image t), the weight tables and bias columns whole, and writes the same rows of the output
  table.  So row r of the output is channel r % 512 of the squeeze-and-excitation block of image r / 512, and
  since every row lies in exactly one step's block the output table is that function of the tables the region
  was entered with.
-/
import proofs.«145145_g2000202709259100_pallasbulk_1026_2_alg».proof.Proof.Gen.KernelIdeal.Frame
import proofs.«145145_g2000202709259100_pallasbulk_1026_2_alg».proof.Proof.KernelPayload
import Idealize.ShloMosaic.Lib.Pipeline.Value

set_option maxRecDepth 16384

noncomputable section

namespace Cert.KernelIdeal.SeValue

open Idealize.ShloMosaic Idealize.ShloMosaic.TcCoe Idealize.ShloMosaic.ValueIdx Idealize.SL.Sem
open Cert.KernelIdeal Cert.KernelIdeal.Gen Cert.SqueezeExcite
open Idealize.ShloMosaic.Pipeline (Dat)

variable (m : (ℓ : Loc nD τ sig) → Buf (Elt Ideal) ℓ)

/-! ## The tables the region is entered with, and each step's blocks, at their literal types -/

abbrev imgArr (c : Dev nD) : FVec Ideal S16384x1024 .f32 := V m c main_v0
abbrev w1Arr (c : Dev nD) : FVec Ideal S32x512 .f32 := V m c main_arg1
abbrev b1Arr (c : Dev nD) : FVec Ideal S32x1 .f32 := V m c main_v1
abbrev w2Arr (c : Dev nD) : FVec Ideal S512x32 .f32 := V m c main_arg3
abbrev b2Arr (c : Dev nD) : FVec Ideal S512x1 .f32 := V m c main_v2

abbrev imgBlk (c : Dev nD) (t : Fin cfg0.N) : FVec Ideal S512x1024 .f32 := iblk m c 0 t
abbrev w1Blk (c : Dev nD) (t : Fin cfg0.N) : FVec Ideal S32x512 .f32 := iblk m c 1 t
abbrev b1Blk (c : Dev nD) (t : Fin cfg0.N) : FVec Ideal S32x1 .f32 := iblk m c 2 t
abbrev w2Blk (c : Dev nD) (t : Fin cfg0.N) : FVec Ideal S512x32 .f32 := iblk m c 3 t
abbrev b2Blk (c : Dev nD) (t : Fin cfg0.N) : FVec Ideal S512x1 .f32 := iblk m c 4 t

/-- Row n · 512 + c of the 16384-row table. -/
abbrev rowOf (n : Fin 32) (c : Fin 512) : Fin 16384 := ⟨n.val * 512 + c.val, by have := n.isLt; have := c.isLt; omega⟩

/-- Image n of the 16384 × 1024 table: its rows n · 512 … n · 512 + 511. -/
def rows (x2 : (⟨2, ![16384, 1024]⟩ : Shape).Idx → EReal) (n : Fin 32) : Fin 512 → Fin 1024 → EReal :=
  fun c p => x2 (ix2 (rowOf n c) p)

/-- The output table as one function of the entry tables: row r is channel r % 512 of the block of image r / 512. -/
def regionOut (x2 : (⟨2, ![16384, 1024]⟩ : Shape).Idx → EReal) (w1 : (⟨2, ![32, 512]⟩ : Shape).Idx → EReal)
    (b1 : (⟨2, ![32, 1]⟩ : Shape).Idx → EReal) (w2 : (⟨2, ![512, 32]⟩ : Shape).Idx → EReal)
    (b2 : (⟨2, ![512, 1]⟩ : Shape).Idx → EReal) : (⟨2, ![16384, 1024]⟩ : Shape).Idx → EReal :=
  fun i => blockScaled invPixels floor0 (rows x2 ⟨(i 0).val / 512, by have := idx2_lt0 i; omega⟩) (table2 w1) (column b1)
    (table2 w2) (column b2) ⟨(i 0).val % 512, by omega⟩ ⟨(i 1).val, idx2_lt1 i⟩

/-- At row n · 512 + c it is channel c of image n's block. -/
theorem regionOut_row (x2 : (⟨2, ![16384, 1024]⟩ : Shape).Idx → EReal) (w1 : (⟨2, ![32, 512]⟩ : Shape).Idx → EReal)
    (b1 : (⟨2, ![32, 1]⟩ : Shape).Idx → EReal) (w2 : (⟨2, ![512, 32]⟩ : Shape).Idx → EReal)
    (b2 : (⟨2, ![512, 1]⟩ : Shape).Idx → EReal) (n : Fin 32) (c : Fin 512) (p : Fin 1024) :
    regionOut x2 w1 b1 w2 b2 (ix2 (rowOf n c) p)
      = blockScaled invPixels floor0 (rows x2 n) (table2 w1) (column b1) (table2 w2) (column b2) c p := by
  have hn : (⟨(n.val * 512 + c.val) / 512, by have := n.isLt; have := c.isLt; omega⟩ : Fin 32) = n :=
    Fin.ext (by show (n.val * 512 + c.val) / 512 = n.val; have := c.isLt; omega)
  have hc : (⟨(n.val * 512 + c.val) % 512, by omega⟩ : Fin 512) = c :=
    Fin.ext (by show (n.val * 512 + c.val) % 512 = c.val; have := c.isLt; omega)
  show blockScaled invPixels floor0 (rows x2 ⟨(n.val * 512 + c.val) / 512, _⟩) (table2 w1) (column b1)
    (table2 w2) (column b2) ⟨(n.val * 512 + c.val) % 512, _⟩ ⟨p.val, _⟩ = _
  rw [hn, hc]

/-! ## The printed index maps -/

theorem hz : (![0, 0] : Fin 2 → Nat) = fun _ => 0 := funext fun a => by fin_cases a <;> rfl

/-- Step t reads and writes row block t; the weights and biases are block 0 of their tables. -/
theorem idx_facts : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## Each step's blocks read off the entry tables -/

theorem imgBlk_apply (c : Dev nD) (t : Fin cfg0.N) (c' : Fin 512) (p : Fin 1024) :
    imgBlk m c t (ix2 c' p) = imgArr m c (ix2 ⟨t.val * 512 + c'.val, by have := t.isLt; have hN : cfg0.N = 32 := N_0; have := c'.isLt; omega⟩ p) := by
  obtain ⟨e0, e1, -⟩ := idx_facts t
  show V m c main_v0 (((cfg0.win 0).blk t).view.emb (ix2 c' p)) = V m c main_v0 _
  refine congrArg (V m c main_v0) (funext fun a => Fin.ext ?_)
  match a with
  | ⟨0, _⟩ => show win0_0.index t (0 : Fin 2) * 512 + 1 * c'.val = t.val * 512 + c'.val; omega
  | ⟨1, _⟩ => show win0_0.index t (1 : Fin 2) * 1024 + 1 * p.val = p.val; omega

theorem w1Blk_eq (c : Dev nD) (t : Fin cfg0.N) : w1Blk m c t = w1Arr m c := by
  obtain ⟨-, -, -, -, e0, e1, -⟩ := idx_facts t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 32 + 1 * (y 0).val = (y 0).val; omega
  | ⟨1, _⟩ => show win0_1.index t (1 : Fin 2) * 512 + 1 * (y 1).val = (y 1).val; omega

theorem b1Blk_eq (c : Dev nD) (t : Fin cfg0.N) : b1Blk m c t = b1Arr m c := by
  obtain ⟨-, -, -, -, -, -, e0, e1, -⟩ := idx_facts t
  funext y
  show V m c main_v1 (((cfg0.win 2).blk t).view.emb y) = V m c main_v1 y
  refine congrArg (V m c main_v1) (funext fun a => Fin.ext ?_)
  match a with
  | ⟨0, _⟩ => show win0_2.index t (0 : Fin 2) * 32 + 1 * (y 0).val = (y 0).val; omega
  | ⟨1, _⟩ => show win0_2.index t (1 : Fin 2) * 1 + 1 * (y 1).val = (y 1).val; omega

theorem w2Blk_eq (c : Dev nD) (t : Fin cfg0.N) : w2Blk m c t = w2Arr m c := by
  obtain ⟨-, -, -, -, -, -, -, -, e0, e1, -⟩ := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 512 + 1 * (y 0).val = (y 0).val; omega
  | ⟨1, _⟩ => show win0_3.index t (1 : Fin 2) * 32 + 1 * (y 1).val = (y 1).val; omega

theorem b2Blk_eq (c : Dev nD) (t : Fin cfg0.N) : b2Blk m c t = b2Arr m c := by
  obtain ⟨-, -, -, -, -, -, -, -, -, -, e0, e1⟩ := idx_facts t
  funext y
  show V m c main_v2 (((cfg0.win 4).blk t).view.emb y) = V m c main_v2 y
  refine congrArg (V m c main_v2) (funext fun a => Fin.ext ?_)
  match a with
  | ⟨0, _⟩ => show win0_4.index t (0 : Fin 2) * 512 + 1 * (y 0).val = (y 0).val; omega
  | ⟨1, _⟩ => show win0_4.index t (1 : Fin 2) * 1 + 1 * (y 1).val = (y 1).val; omega

/-! ## What a step writes back, and the table after the run -/

/-- The grid point as an image number. -/
abbrev imgOf (t : Fin cfg0.N) : Fin 32 := ⟨t.val, by have := t.isLt; have hN : cfg0.N = 32 := N_0; omega⟩

/-- What step t writes back is block t of the output function of the entry tables. -/
theorem flushed_eq (c : Dev nD) (t : Fin cfg0.N) :
    (dats m 0 c).flushed 5 t = ((cfg0.win 5).blk t).view.read (Elt Ideal)
      (regionOut (imgArr m c) (w1Arr m c) (b1Arr m c) (w2Arr m c) (b2Arr m c)) := by
  show (cfg0.win 5).cut (grid0.coords t) ((dats m 0 c).after 5 t) = _
  rw [after0_5]
  unfold out0_5
  rw [View.canon_unit_zero hz]
  simp only [View.ld_unit_zero (S := S512x1024) hz, View.ld_unit_zero (S := S32x512) hz, View.ld_unit_zero (S := S32x1) hz,
    View.ld_unit_zero (S := S512x32) hz, View.ld_unit_zero (S := S512x1) hz]
  obtain ⟨-, -, e0, e1, -⟩ := idx_facts t
  funext j
  obtain ⟨c', p, rfl⟩ : ∃ (c' : Fin 512) (p : Fin 1024), j = ix2 c' p := ⟨j 0, j 1, eq_ix2 j⟩
  have he : ((cfg0.win 5).blk t).view.emb (ix2 c' p) = ix2 (rowOf (imgOf t) c') p := funext fun a => Fin.ext (by
    match a with
    | ⟨0, _⟩ => show win0_5.index t (0 : Fin 2) * 512 + 1 * c'.val = t.val * 512 + c'.val; omega
    | ⟨1, _⟩ => show win0_5.index t (1 : Fin 2) * 1024 + 1 * p.val = p.val; omega)
  show k0_pay1 (F := Ideal) (imgBlk m c t) (w1Blk m c t) (b1Blk m c t) (w2Blk m c t) (b2Blk m c t) (ix2 c' p)
    = regionOut (imgArr m c) (w1Arr m c) (b1Arr m c) (w2Arr m c) (b2Arr m c) (((cfg0.win 5).blk t).view.emb (ix2 c' p))
  rw [he, regionOut_row, stored_apply, w1Blk_eq, b1Blk_eq, w2Blk_eq, b2Blk_eq]
  have hx : table2 (imgBlk m c t) = rows (imgArr m c) (imgOf t) :=
    funext fun a => funext fun b => imgBlk_apply m c t a b
  rw [hx]

/-- A row of the table is in step t's block iff it is one of rows t · 512 … t · 512 + 511. -/
theorem mem_blk (t : Fin cfg0.N) (i : S16384x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v3).slice (win0_5.rect t)).set ↔ _
  rw [View.set_slice_whole, Rect.mem_set_unit]
  exact Iff.rfl

/-- Every entry of the table is written by the step of its image. -/
theorem cover (i : S16384x1024.Idx) :
    ∃ t : Fin cfg0.N, (cfg0.win 5).flush t = true ∧ i ∈ ((cfg0.win 5).blk t).view.set := by
  have h0 : (i 0).val < 16384 := idx2_lt0 i
  have h1 : (i 1).val < 1024 := idx2_lt1 i
  have hN : cfg0.N = 32 := N_0
  obtain ⟨t, ht⟩ : ∃ t : Fin cfg0.N, t.val = (i 0).val / 512 := ⟨⟨(i 0).val / 512, by omega⟩, rfl⟩
  obtain ⟨-, -, e0, e1, -⟩ := idx_facts t
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- The output table after the run. -/
theorem final (c : Dev nD) :
    (dats m 0 c).arrAt 5 cfg0.N = regionOut (imgArr m c) (w1Arr m c) (b1Arr m c) (w2Arr m c) (b2Arr m c) :=
  (dats m 0 c).arrAt_eq_of_cover 5 _ (fun t _ => flushed_eq m c t) (cover)

end Cert.KernelIdeal.SeValue

end
-- ==== Proof.KernelRun.lean ====
/-
  The fused row kernel's whole program, read as a value.

  Before the region the batch [32, 512, 32, 32] is re-laid as the 16384 × 1024 table (same row-major order: row
  n · 512 + c, column h · 32 + w is entry (n, c, h, w)) and the two biases as columns; after it the output table is
  re-laid as [32, 512, 32, 32].  Reading each re-laying at an entry, the program's result at (n, c, h, w) is pixel
  h · 32 + w of channel c of the squeeze-and-excitation block of image n, with the squeeze scaled pixel by pixel.
-/
import proofs.«145145_g2000202709259100_pallasbulk_1026_2_alg».proof.Proof.KernelRegion
import Idealize.ShloMosaic.Lib.StableHlo.Run

set_option maxRecDepth 16384

noncomputable section

namespace Cert.KernelIdeal.SeRun

open Idealize.ShloMosaic Idealize.ShloMosaic.TcCoe Idealize.ShloMosaic.ValueIdx Idealize.SL.Sem
open Cert.KernelIdeal Cert.KernelIdeal.Gen Cert.KernelIdeal.SeValue Cert.SqueezeExcite
open Idealize.ShloMosaic.Pipeline (Dat)

variable (m : (ℓ : Loc nD τ sig) → Buf (Elt Ideal) ℓ)

/-! ## The host lines before the region -/

/-- The table the region reads is the batch re-laid. -/
theorem imgArr_eq (c : Dev nD) :
    imgArr m c = shapeCast S16384x1024 (m ((c : Thread nD τ).loc main_arg0)) shapeCasts_S32x512x32x32_S16384x1024 := by
  show StableHlo.after hostOps0 (fun b => m (c, b)) (Proc.devRef .tc main_v0) = _
  after_results
  rfl

/-- The first bias column is the first bias re-laid. -/
theorem b1Arr_eq (c : Dev nD) :
    b1Arr m c = shapeCast S32x1 (m ((c : Thread nD τ).loc main_arg2)) shapeCasts_S32_S32x1 := by
  show StableHlo.after hostOps0 (fun b => m (c, b)) (Proc.devRef .tc main_v1) = _
  after_results
  rfl

/-- The second bias column is the second bias re-laid. -/
theorem b2Arr_eq (c : Dev nD) :
    b2Arr m c = shapeCast S512x1 (m ((c : Thread nD τ).loc main_arg4)) shapeCasts_S512_S512x1 := by
  show StableHlo.after hostOps0 (fun b => m (c, b)) (Proc.devRef .tc main_v2) = _
  after_results
  rfl

/-- The weight tables are the arguments themselves. -/
theorem w1Arr_eq (c : Dev nD) : w1Arr m c = m ((c : Thread nD τ).loc main_arg1) := V_main_arg1 m c
theorem w2Arr_eq (c : Dev nD) : w2Arr m c = m ((c : Thread nD τ).loc main_arg3) := V_main_arg3 m c

/-! ## The host line after the region -/

/-- The program's result is the output table re-laid. -/
theorem result_eq (c : Dev nD) :
    Pipeline.afterTail₀ cfgs (dats m) 0 (V0 m) [hostOps1] c main_v4
      = shapeCast S32x512x32x32 ((dats m 0 c).arrAt 5 cfg0.N) shapeCasts_S16384x1024_S32x512x32x32 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.tc.devRef main_v3)
      = (dats m 0 c).arrAt 5 cfg0.N :=
    Pipeline.withArrays_arr spec0 launch0.win.arr_inj c _ _ 5
  rw [hw]
  rfl

/-! ## The re-layings read at an entry -/

/-- Rows n · 512 … of the re-laid batch are image n. -/
theorem rows_relaid (X : Batch.Idx → EReal) (h : Batch.ShapeCasts ⟨2, ![16384, 1024]⟩) (n : Fin 32) :
    rows (shapeCast ⟨2, ![16384, 1024]⟩ X h) n = image X n := by
  funext c' p
  show shapeCast ⟨2, ![16384, 1024]⟩ X h (ix2 (rowOf n c') p) = X (ix4 n c' (pixRow p) (pixCol p))
  refine shapeCast_apply X h _ _ ?_
  rw [Shape.rowMajor_val_two, Shape.rowMajor_val_four]
  show ((n.val * 512 + c'.val) * 32 + p.val / 32) * 32 + p.val % 32 = (n.val * 512 + c'.val) * 1024 + p.val
  omega

/-- A bias re-laid as a column, read as a table of one index, is the bias. -/
theorem column_relaid {a : Nat} (B : (⟨1, ![a]⟩ : Shape).Idx → EReal) (h : (⟨1, ![a]⟩ : Shape).ShapeCasts ⟨2, ![a, 1]⟩) :
    column (shapeCast ⟨2, ![a, 1]⟩ B h) = table1 B :=
  funext fun i => Cert.LibColumn.shapeCast_a_a1_apply B h i 0

/-- The output table re-laid as the batch's shape is the squeeze-and-excitation of the arguments. -/
theorem result_value (c : Dev nD) :
    shapeCast S32x512x32x32 (regionOut (imgArr m c) (w1Arr m c) (b1Arr m c) (w2Arr m c) (b2Arr m c))
        shapeCasts_S16384x1024_S32x512x32x32
      = resultScaled (m ((c : Thread nD τ).loc main_arg0)) (m ((c : Thread nD τ).loc main_arg1))
          (m ((c : Thread nD τ).loc main_arg2)) (m ((c : Thread nD τ).loc main_arg3)) (m ((c : Thread nD τ).loc main_arg4)) := by
  funext i
  obtain ⟨n, c', h, w, rfl⟩ : ∃ (n : Fin 32) (c' : Fin 512) (h w : Fin 32), i = ix4 n c' h w :=
    ⟨i 0, i 1, i 2, i 3, eq_ix4 i⟩
  rw [shapeCast_apply _ shapeCasts_S16384x1024_S32x512x32x32 (ix4 n c' h w) (ix2 (rowOf n c') (pixel h w)) (by
    rw [Shape.rowMajor_val_two, Shape.rowMajor_val_four]
    show (n.val * 512 + c'.val) * 1024 + (h.val * 32 + w.val) = ((n.val * 512 + c'.val) * 32 + h.val) * 32 + w.val
    omega)]
  rw [regionOut_row, imgArr_eq, rows_relaid, w1Arr_eq, w2Arr_eq, b1Arr_eq, b2Arr_eq, column_relaid, column_relaid]
  rfl

/-! ## The run -/

/-- Every execution of the program ends with its result at the squeeze-and-excitation of its arguments (the squeeze
    scaled pixel by pixel) and its arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4)
          = resultScaled (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans
        ((result_eq m c).trans ((congrArg (fun A => shapeCast S32x512x32x32 A shapeCasts_S16384x1024_S32x512x32x32) (final m c)).trans (result_value m c))),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩)
    (run_main m ρ)

end Cert.KernelIdeal.SeRun

end
-- ==== Proof.ReferencePayload.lean ====
/-
  What the reference program's body stores, read at one entry.

  The body holds one image as a 1 × 512 × 1024 block x (512 channels, 1024 pixels), the first weight table transposed
  (512 × 32), the first bias as a row (1 × 32), the second weight table transposed (32 × 512) and the second bias as a
  row (1 × 512).  It adds the pixels of each channel and scales the total by 2⁻¹⁰ (the squeeze s, a 1 × 512 row);
  multiplies s into the first table, adds the first bias and cuts below at zero (the hidden row r, 1 × 32);
  multiplies r into the second table, adds the second bias and takes the logistic (the gate row g, 1 × 512); views
  g as a column beside the image and multiplies every pixel of channel c by g(c).

  Each stage is read at an entry: the total over the pixel axis is a sum over that axis's coordinates, a plain matrix
  product is the sum over the shared index of the operands' products, and the layout steps move no value.  The body
  multiplies squeeze by weight and hidden by weight; the specification writes weight first, and a product may be
  written in either order.  So entry (0, c, p) of the stored block is entry (c, p) of the squeeze-and-excitation block
  of the image, with the squeeze scaled after the sum.
-/
import proofs.«145145_g2000202709259100_pallasbulk_1026_2_alg».proof.Proof.Gen.ReferenceIdeal.Skeleton
import proofs.«145145_g2000202709259100_pallasbulk_1026_2_alg».proof.Proof.SqueezeExcite
import proofs.«145145_g2000202709259100_pallasbulk_1026_2_alg».proof.Proof.LibDotPlain
import Idealize.ShloMosaic.Lib.Pipeline.Value
import Idealize.ShloMosaic.Lib.ValueIdx
import Idealize.ShloMosaic.PureOps.Ideal.Laws

noncomputable section

namespace Cert.ReferenceIdeal.SeValue

open Idealize.ShloMosaic Idealize.ShloMosaic.ValueIdx Cert.ReferenceIdeal Cert.ReferenceIdeal.Gen Cert.SqueezeExcite

/-! ## The loaded blocks as tables -/

/-- A one-row table read along its row. -/
def row {a : Nat} (B : (⟨2, ![1, a]⟩ : Shape).Idx → EReal) : Fin a → EReal := fun i => B (ix2 (0 : Fin 1) i)

/-- A table read transposed: entry (i, j) is the table's entry (j, i). -/
def tableT {a b : Nat} (W : (⟨2, ![a, b]⟩ : Shape).Idx → EReal) : Fin b → Fin a → EReal := fun i j => W (ix2 j i)

/-- The one image of a 1 × 512 × 1024 block as a channels × pixels table. -/
def plane (x : (⟨3, ![1, 512, 1024]⟩ : Shape).Idx → EReal) : Fin 512 → Fin 1024 → EReal := fun c p => x (ix3 (0 : Fin 1) c p)

/-! ## A gate column kept beside its image: two layout operations read at an entry -/

section Layout
variable {α : Type}

/-- A one-row table viewed with a trailing unit axis reads, at (u, i, v), the table at (u, i). -/
theorem shapeCast_1a_1a1_apply {a : ℕ} (x : (⟨2, ![1, a]⟩ : Shape).Idx → α)
    (h : (⟨2, ![1, a]⟩ : Shape).ShapeCasts ⟨3, ![1, a, 1]⟩) (u : Fin 1) (i : Fin a) (v : Fin 1) :
    shapeCast ⟨3, ![1, a, 1]⟩ x h (ix3 u i v) = x (ix2 u i) :=
  shapeCast_apply x h _ _ (by
    rw [Shape.rowMajor_val_two, Shape.rowMajor_val_three]
    show u.val * a + i.val = (u.val * a + i.val) * 1 + v.val
    have := v.isLt; omega)

/-- A column of one entry per channel repeated along b pixels reads, at (0, c, p), the column at (0, c, 0). -/
theorem broadcastTo_1a1_1ab_apply {a b : ℕ} (v : (⟨3, ![1, a, 1]⟩ : Shape).Idx → α)
    (h : (⟨3, ![1, a, 1]⟩ : Shape).Broadcasts ⟨3, ![1, a, b]⟩) (c : Fin a) (p : Fin b) :
    broadcastTo ⟨3, ![1, a, b]⟩ v h (ix3 (0 : Fin 1) c p) = v (ix3 (0 : Fin 1) c (0 : Fin 1)) := by
  refine broadcastTo_apply v h (ix3 (0 : Fin 1) c p) (ix3 (0 : Fin 1) c (0 : Fin 1)) fun ax => ?_
  match ax with
  | ⟨0, _⟩ => rfl
  | ⟨1, _⟩ =>
    show c.val = if a = 1 then 0 else c.val
    split
    · have := c.isLt; omega
    · rfl
  | ⟨2, _⟩ => rfl

end Layout

/-! ## The body's three stages, each as a vector of its inputs -/

/-- The two products of the body are plain matrix products. -/
theorem dotSqueeze_eq : dot_S1x512_S512x32_S1x32_1_0_0_1_n_n = DotDims.plain 1 512 32 := rfl
theorem dotHidden_eq : dot_S1x32_S32x512_S1x512_1_0_0_1_n_n = DotDims.plain 1 32 512 := rfl

/-- The squeeze of the image block: the pixel total of each channel, then the scale. -/
def squeezeVec (x : FVec Ideal S1x512x1024 .f32) : FVec Ideal S1x512 .f32 :=
  mulf (multiReduction (F := Ideal) .add [2] S1x512 (shapeCast S1x512x1024 x shapeCasts_S1x512x1024_S1x512x1024 : FVec Ideal S1x512x1024 .f32) 0x00000000#32
      reduces_S1x512x1024_S1x512 (.inl rfl) rfl) (broadcast S1x512 (Scalar.ofBits (F := Ideal) .f32 0x3A800000#32))

/-- The hidden layer from a squeeze row s: s times the first weights, plus the first bias, cut below at zero. -/
def hiddenVec (s : FVec Ideal S1x512 .f32) (w1t : FVec Ideal S512x32 .f32) (b1 : FVec Ideal S1x32 .f32) : FVec Ideal S1x32 .f32 :=
  maximumf (addf (matmul dot_S1x512_S512x32_S1x32_1_0_0_1_n_n none s (shapeCast S512x32 w1t shapeCasts_S512x32_S512x32 : FVec Ideal S512x32 .f32)
      (constant (F := Ideal) S1x32 .f32 0x00000000#32)) (shapeCast S1x32 b1 shapeCasts_S1x32_S1x32 : FVec Ideal S1x32 .f32))
    (broadcast S1x32 (Scalar.ofBits (F := Ideal) .f32 0x00000000#32))

/-- The gate from a hidden row r: the logistic of r times the second weights plus the second bias. -/
def gateVec (r : FVec Ideal S1x32 .f32) (w2t : FVec Ideal S32x512 .f32) (b2 : FVec Ideal S1x512 .f32) : FVec Ideal S1x512 .f32 :=
  logistic (addf (matmul dot_S1x32_S32x512_S1x512_1_0_0_1_n_n none r (shapeCast S32x512 w2t shapeCasts_S32x512_S32x512 : FVec Ideal S32x512 .f32)
      (constant (F := Ideal) S1x512 .f32 0x00000000#32)) (shapeCast S1x512 b2 shapeCasts_S1x512_S1x512 : FVec Ideal S1x512 .f32))

/-- The body's stored value is the image block times the gate column, the gate built from the three stages. -/
theorem pay_eq_stages (x : FVec Ideal S1x512x1024 .f32) (w1t : FVec Ideal S512x32 .f32) (b1 : FVec Ideal S1x32 .f32)
    (w2t : FVec Ideal S32x512 .f32) (b2 : FVec Ideal S1x512 .f32) :
    k0_pay1 (F := Ideal) x w1t b1 w2t b2
      = mulf (shapeCast S1x512x1024 x shapeCasts_S1x512x1024_S1x512x1024 : FVec Ideal S1x512x1024 .f32)
          (broadcastTo S1x512x1024 (shapeCast S1x512x1 (gateVec (hiddenVec (squeezeVec x) w1t b1) w2t b2) shapeCasts_S1x512_S1x512x1 : FVec Ideal S1x512x1 .f32)
            broadcasts_S1x512x1_S1x512x1024) := rfl

/-- The logistic of a vector, entry by entry. -/
theorem logistic_apply {s : Shape} {φ : FTy} (a : FVec Ideal s φ) (i : s.Idx) : logistic a i = Ideal.logistic (a i) := rfl

/-- Entry c of the squeeze row: the pixel total of channel c times the scale. -/
theorem squeezeVec_apply (x : FVec Ideal S1x512x1024 .f32) (c : Fin 512) :
    squeezeVec x (ix2 (0 : Fin 1) c) = squeezeTotal invPixels (plane x) c := by
  unfold squeezeVec
  rw [mulf_apply, broadcast_apply, shapeCast_self]
  refine congrArg (· * _) ?_
  refine (Ideal.multiReduction_add_single x 0x00000000#32 reduces_S1x512x1024_S1x512 (.inl rfl) rfl (ix2 (0 : Fin 1) c)).trans ?_
  show ∑ k : Fin 1024, x (reduces_S1x512x1024_S1x512.lift (ix2 (0 : Fin 1) c) k) = ∑ p : Fin 1024, x (ix3 (0 : Fin 1) c p)
  refine Finset.sum_congr rfl fun k _ => congrArg x ?_
  funext a; apply Fin.ext
  match a with
  | ⟨0, _⟩ => rfl
  | ⟨1, _⟩ => rfl
  | ⟨2, _⟩ => rfl

/-- Entry j of the hidden row. The body multiplies squeeze by weight; a product may be written in either order. -/
theorem hiddenVec_apply (s : FVec Ideal S1x512 .f32) (w1t : FVec Ideal S512x32 .f32) (b1 : FVec Ideal S1x32 .f32) (j : Fin 32) :
    hiddenVec s w1t b1 (ix2 (0 : Fin 1) j)
      = Cert.SqueezeExcite.hidden floor0 (row s) (tableT w1t) (row b1) j := by
  unfold hiddenVec Cert.SqueezeExcite.hidden
  rw [maximumf_apply, addf_apply, broadcast_apply, shapeCast_self, shapeCast_self, dotSqueeze_eq, Cert.LibDot.mm_plain]
  refine congrArg (fun t => max (t + _) _) ?_
  exact Finset.sum_congr rfl fun k _ => mul_comm _ _

/-- Entry c of the gate row, likewise. -/
theorem gateVec_apply (r : FVec Ideal S1x32 .f32) (w2t : FVec Ideal S32x512 .f32) (b2 : FVec Ideal S1x512 .f32) (c : Fin 512) :
    gateVec r w2t b2 (ix2 (0 : Fin 1) c)
      = gate (row r) (tableT w2t) (row b2) c := by
  unfold gateVec gate
  rw [logistic_apply, addf_apply, shapeCast_self, shapeCast_self, dotHidden_eq, Cert.LibDot.mm_plain]
  refine congrArg (fun t => Ideal.logistic (t + _)) ?_
  exact Finset.sum_congr rfl fun k _ => mul_comm _ _

/-! ## The body's stored value at an entry -/

/-- Entry (0, c, p) of what the body stores is the squeeze-and-excitation block of the loaded image at (c, p), the
    squeeze scaled after the sum, with the weight tables read transposed and the bias rows read along their row. -/
theorem stored_apply (x : FVec Ideal S1x512x1024 .f32) (w1t : FVec Ideal S512x32 .f32) (b1 : FVec Ideal S1x32 .f32)
    (w2t : FVec Ideal S32x512 .f32) (b2 : FVec Ideal S1x512 .f32) (c : Fin 512) (p : Fin 1024) :
    k0_pay1 (F := Ideal) x w1t b1 w2t b2 (ix3 (0 : Fin 1) c p)
      = blockTotal invPixels floor0 (plane x) (tableT w1t) (row b1) (tableT w2t) (row b2) c p := by
  have hs : row (squeezeVec x) = squeezeTotal invPixels (plane x) :=
    funext fun c => squeezeVec_apply x c
  have hr : row (hiddenVec (squeezeVec x) w1t b1)
      = Cert.SqueezeExcite.hidden floor0 (squeezeTotal invPixels (plane x)) (tableT w1t) (row b1) :=
    funext fun j => (hiddenVec_apply (squeezeVec x) w1t b1 j).trans (by rw [hs])
  rw [pay_eq_stages, mulf_apply, shapeCast_self, broadcastTo_1a1_1ab_apply, shapeCast_1a_1a1_apply, gateVec_apply, hr]
  rfl

end Cert.ReferenceIdeal.SeValue

end
-- ==== Proof.ReferenceRegion.lean ====
/-
  What the reference program's output array holds after all 32 grid steps.

  The program sees the batch as a 32 × 512 × 1024 array: plane n is image n, channels by pixels.  Step t loads plane t,
  the two transposed weight tables and the two bias rows whole, and writes plane t of the output array.  So entry
  (n, c, p) of the output is entry (c, p) of the squeeze-and-excitation block of image n (the squeeze scaled after the
  sum), and since every entry lies in exactly one step's block the output array is that function of the arrays the
  region was entered with.
-/
import proofs.«145145_g2000202709259100_pallasbulk_1026_2_alg».proof.Proof.Gen.ReferenceIdeal.Frame
import proofs.«145145_g2000202709259100_pallasbulk_1026_2_alg».proof.Proof.ReferencePayload
import Idealize.ShloMosaic.Lib.Pipeline.Value

set_option maxRecDepth 16384

noncomputable section

namespace Cert.ReferenceIdeal.SeValue

open Idealize.ShloMosaic Idealize.ShloMosaic.TcCoe Idealize.ShloMosaic.ValueIdx Idealize.SL.Sem
open Cert.ReferenceIdeal Cert.ReferenceIdeal.Gen Cert.SqueezeExcite
open Idealize.ShloMosaic.Pipeline (Dat)

variable (m : (ℓ : Loc nD τ sig) → Buf (Elt Ideal) ℓ)

/-! ## The arrays the region is entered with, and each step's blocks, at their literal types -/

abbrev batchArr (c : Dev nD) : FVec Ideal S32x512x1024 .f32 := V m c main_v0
abbrev w1tArr (c : Dev nD) : FVec Ideal S512x32 .f32 := V m c main_v1
abbrev b1RowArr (c : Dev nD) : FVec Ideal S1x32 .f32 := V m c main_v3
abbrev w2tArr (c : Dev nD) : FVec Ideal S32x512 .f32 := V m c main_v2
abbrev b2RowArr (c : Dev nD) : FVec Ideal S1x512 .f32 := V m c main_v4

abbrev planeBlk (c : Dev nD) (t : Fin cfg0.N) : FVec Ideal S1x512x1024 .f32 := iblk m c 0 t
abbrev w1tBlk (c : Dev nD) (t : Fin cfg0.N) : FVec Ideal S512x32 .f32 := iblk m c 1 t
abbrev b1RowBlk (c : Dev nD) (t : Fin cfg0.N) : FVec Ideal S1x32 .f32 := iblk m c 2 t
abbrev w2tBlk (c : Dev nD) (t : Fin cfg0.N) : FVec Ideal S32x512 .f32 := iblk m c 3 t
abbrev b2RowBlk (c : Dev nD) (t : Fin cfg0.N) : FVec Ideal S1x512 .f32 := iblk m c 4 t

/-- Image n of the 32 × 512 × 1024 array: its plane n. -/
def planeOf (x3 : (⟨3, ![32, 512, 1024]⟩ : Shape).Idx → EReal) (n : Fin 32) : Fin 512 → Fin 1024 → EReal :=
  fun c p => x3 (ix3 n c p)

/-- The output array as one function of the entry arrays: entry (n, c, p) is entry (c, p) of the block of image n. -/
def arrayOut (x3 : (⟨3, ![32, 512, 1024]⟩ : Shape).Idx → EReal) (w1t : (⟨2, ![512, 32]⟩ : Shape).Idx → EReal)
    (b1 : (⟨2, ![1, 32]⟩ : Shape).Idx → EReal) (w2t : (⟨2, ![32, 512]⟩ : Shape).Idx → EReal)
    (b2 : (⟨2, ![1, 512]⟩ : Shape).Idx → EReal) : (⟨3, ![32, 512, 1024]⟩ : Shape).Idx → EReal :=
  fun i => blockTotal invPixels floor0 (planeOf x3 (i 0)) (tableT w1t) (row b1) (tableT w2t) (row b2) (i 1) (i 2)

/-- At (n, c, p) it is entry (c, p) of image n's block. -/
theorem arrayOut_entry (x3 : (⟨3, ![32, 512, 1024]⟩ : Shape).Idx → EReal) (w1t : (⟨2, ![512, 32]⟩ : Shape).Idx → EReal)
    (b1 : (⟨2, ![1, 32]⟩ : Shape).Idx → EReal) (w2t : (⟨2, ![32, 512]⟩ : Shape).Idx → EReal)
    (b2 : (⟨2, ![1, 512]⟩ : Shape).Idx → EReal) (n : Fin 32) (c : Fin 512) (p : Fin 1024) :
    arrayOut x3 w1t b1 w2t b2 (ix3 n c p)
      = blockTotal invPixels floor0 (planeOf x3 n) (tableT w1t) (row b1) (tableT w2t) (row b2) c p := rfl

/-! ## The printed index maps -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- Step t reads and writes plane t; the weight tables and bias rows are block 0 of their arrays. -/
theorem step_blocks : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The grid point as an image number. -/
abbrev imageOf (t : Fin cfg0.N) : Fin 32 := ⟨t.val, by have := t.isLt; have hN : cfg0.N = 32 := N_0; omega⟩

/-! ## Each step's blocks read off the entry arrays -/

theorem planeBlk_apply (c : Dev nD) (t : Fin cfg0.N) (c' : Fin 512) (p : Fin 1024) :
    planeBlk m c t (ix3 (0 : Fin 1) c' p) = batchArr m c (ix3 (imageOf t) c' p) := by
  obtain ⟨e0, e1, e2, -⟩ := step_blocks t
  show V m c main_v0 (((cfg0.win 0).blk t).view.emb (ix3 (0 : Fin 1) c' p)) = V m c main_v0 _
  refine congrArg (V m c main_v0) (funext fun a => Fin.ext ?_)
  match a with
  | ⟨0, _⟩ => show win0_0.index t (0 : Fin 3) * 1 + 1 * 0 = t.val; omega
  | ⟨1, _⟩ => show win0_0.index t (1 : Fin 3) * 512 + 1 * c'.val = c'.val; omega
  | ⟨2, _⟩ => show win0_0.index t (2 : Fin 3) * 1024 + 1 * p.val = p.val; omega

theorem w1tBlk_eq (c : Dev nD) (t : Fin cfg0.N) : w1tBlk m c t = w1tArr m c := by
  obtain ⟨-, -, -, -, -, -, e0, e1, -⟩ := step_blocks t
  funext y
  show V m c main_v1 (((cfg0.win 1).blk t).view.emb y) = V m c main_v1 y
  refine congrArg (V m c main_v1) (funext fun a => Fin.ext ?_)
  match a with
  | ⟨0, _⟩ => show win0_1.index t (0 : Fin 2) * 512 + 1 * (y 0).val = (y 0).val; omega
  | ⟨1, _⟩ => show win0_1.index t (1 : Fin 2) * 32 + 1 * (y 1).val = (y 1).val; omega

theorem b1RowBlk_eq (c : Dev nD) (t : Fin cfg0.N) : b1RowBlk m c t = b1RowArr m c := by
  obtain ⟨-, -, -, -, -, -, -, -, e0, e1, -⟩ := step_blocks t
  funext y
  show V m c main_v3 (((cfg0.win 2).blk t).view.emb y) = V m c main_v3 y
  refine congrArg (V m c main_v3) (funext fun a => Fin.ext ?_)
  match a with
  | ⟨0, _⟩ => show win0_2.index t (0 : Fin 2) * 1 + 1 * (y 0).val = (y 0).val; omega
  | ⟨1, _⟩ => show win0_2.index t (1 : Fin 2) * 32 + 1 * (y 1).val = (y 1).val; omega

theorem w2tBlk_eq (c : Dev nD) (t : Fin cfg0.N) : w2tBlk m c t = w2tArr m c := by
  obtain ⟨-, -, -, -, -, -, -, -, -, -, e0, e1, -⟩ := step_blocks t
  funext y
  show V m c main_v2 (((cfg0.win 3).blk t).view.emb y) = V m c main_v2 y
  refine congrArg (V m c main_v2) (funext fun a => Fin.ext ?_)
  match a with
  | ⟨0, _⟩ => show win0_3.index t (0 : Fin 2) * 32 + 1 * (y 0).val = (y 0).val; omega
  | ⟨1, _⟩ => show win0_3.index t (1 : Fin 2) * 512 + 1 * (y 1).val = (y 1).val; omega

theorem b2RowBlk_eq (c : Dev nD) (t : Fin cfg0.N) : b2RowBlk m c t = b2RowArr m c := by
  obtain ⟨-, -, -, -, -, -, -, -, -, -, -, -, e0, e1⟩ := step_blocks t
  funext y
  show V m c main_v4 (((cfg0.win 4).blk t).view.emb y) = V m c main_v4 y
  refine congrArg (V m c main_v4) (funext fun a => Fin.ext ?_)
  match a with
  | ⟨0, _⟩ => show win0_4.index t (0 : Fin 2) * 1 + 1 * (y 0).val = (y 0).val; omega
  | ⟨1, _⟩ => show win0_4.index t (1 : Fin 2) * 512 + 1 * (y 1).val = (y 1).val; omega

/-! ## What a step writes back, and the array after the run -/

/-- What step t writes back is block t of the output function of the entry arrays. -/
theorem flushed_eq (c : Dev nD) (t : Fin cfg0.N) :
    (dats m 0 c).flushed 5 t = ((cfg0.win 5).blk t).view.read (Elt Ideal)
      (arrayOut (batchArr m c) (w1tArr m c) (b1RowArr m c) (w2tArr m c) (b2RowArr m c)) := by
  show (cfg0.win 5).cut (grid0.coords t) ((dats m 0 c).after 5 t) = _
  rw [after0_5]
  unfold out0_5
  rw [View.canon_unit_zero zeros3]
  simp only [View.ld_unit_zero (S := S1x512x1024) zeros3, View.ld_unit_zero (S := S512x32) zeros2,
    View.ld_unit_zero (S := S1x32) zeros2, View.ld_unit_zero (S := S32x512) zeros2, View.ld_unit_zero (S := S1x512) zeros2]
  obtain ⟨-, -, -, e0, e1, e2, -⟩ := step_blocks t
  funext j
  obtain ⟨u, c', p, rfl⟩ : ∃ (u : Fin 1) (c' : Fin 512) (p : Fin 1024), j = ix3 u c' p := ⟨j 0, j 1, j 2, eq_ix3 j⟩
  obtain rfl : u = 0 := Subsingleton.elim _ _
  have he : ((cfg0.win 5).blk t).view.emb (ix3 (0 : Fin 1) c' p) = ix3 (imageOf t) c' p := funext fun a => Fin.ext (by
    match a with
    | ⟨0, _⟩ => show win0_5.index t (0 : Fin 3) * 1 + 1 * 0 = t.val; omega
    | ⟨1, _⟩ => show win0_5.index t (1 : Fin 3) * 512 + 1 * c'.val = c'.val; omega
    | ⟨2, _⟩ => show win0_5.index t (2 : Fin 3) * 1024 + 1 * p.val = p.val; omega)
  show k0_pay1 (F := Ideal) (planeBlk m c t) (w1tBlk m c t) (b1RowBlk m c t) (w2tBlk m c t) (b2RowBlk m c t) (ix3 (0 : Fin 1) c' p)
    = arrayOut (batchArr m c) (w1tArr m c) (b1RowArr m c) (w2tArr m c) (b2RowArr m c) (((cfg0.win 5).blk t).view.emb (ix3 (0 : Fin 1) c' p))
  rw [he, arrayOut_entry, stored_apply, w1tBlk_eq, b1RowBlk_eq, w2tBlk_eq, b2RowBlk_eq]
  have hx : plane (planeBlk m c t) = planeOf (batchArr m c) (imageOf t) :=
    funext fun a => funext fun b => planeBlk_apply m c t a b
  rw [hx]

/-- An entry of the array is in step t's block iff it lies in plane t. -/
theorem mem_blk (t : Fin cfg0.N) (i : S32x512x1024.Idx) :
    i ∈ ((cfg0.win 5).blk t).view.set ↔ ∀ a : Fin 3, win0_5.index t a * S1x512x1024.size a ≤ (i a).val
      ∧ (i a).val < win0_5.index t a * S1x512x1024.size a + S1x512x1024.size a := by
  show i ∈ ((View.whole main_v5).slice (win0_5.rect t)).set ↔ _
  rw [View.set_slice_whole, Rect.mem_set_unit]
  exact Iff.rfl

/-- Every entry of the array is written by the step of its image. -/
theorem cover (i : S32x512x1024.Idx) :
    ∃ t : Fin cfg0.N, (cfg0.win 5).flush t = true ∧ i ∈ ((cfg0.win 5).blk t).view.set := by
  have h0 : (i 0).val < 32 := (i 0).isLt
  have h1 : (i 1).val < 512 := (i 1).isLt
  have h2 : (i 2).val < 1024 := (i 2).isLt
  have hN : cfg0.N = 32 := N_0
  obtain ⟨t, ht⟩ : ∃ t : Fin cfg0.N, t.val = (i 0).val := ⟨⟨(i 0).val, by omega⟩, rfl⟩
  obtain ⟨-, -, -, e0, e1, e2, -⟩ := step_blocks t
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

/-- The output array after the run. -/
theorem final (c : Dev nD) :
    (dats m 0 c).arrAt 5 cfg0.N = arrayOut (batchArr m c) (w1tArr m c) (b1RowArr m c) (w2tArr m c) (b2RowArr m c) :=
  (dats m 0 c).arrAt_eq_of_cover 5 _ (fun t _ => flushed_eq m c t) (cover)

end Cert.ReferenceIdeal.SeValue

end
-- ==== Proof.ReferenceRun.lean ====
/-
  The reference program read as a value.

  Before the region the batch [32, 512, 32, 32] is re-laid as a 32 × 512 × 1024 array (same row-major order: entry
  (n, c, h · 32 + w) is entry (n, c, h, w)), the two weight tables are transposed and the two biases are re-laid as
  rows; after it the output array is re-laid as [32, 512, 32, 32].  Reading each of these at an entry, the program's
  result at (n, c, h, w) is pixel h · 32 + w of channel c of the squeeze-and-excitation block of image n, with the
  squeeze scaled after the sum, over the weights and biases as given.
-/
import proofs.«145145_g2000202709259100_pallasbulk_1026_2_alg».proof.Proof.ReferenceRegion
import Idealize.ShloMosaic.Lib.StableHlo.Run

set_option maxRecDepth 16384

noncomputable section

namespace Cert.ReferenceIdeal.SeRun

open Idealize.ShloMosaic Idealize.ShloMosaic.TcCoe Idealize.ShloMosaic.ValueIdx Idealize.SL.Sem
open Cert.ReferenceIdeal Cert.ReferenceIdeal.Gen Cert.ReferenceIdeal.SeValue Cert.SqueezeExcite
open Idealize.ShloMosaic.Pipeline (Dat)

variable (m : (ℓ : Loc nD τ sig) → Buf (Elt Ideal) ℓ)

/-! ## The host lines before the region -/

/-- The array the region reads is the batch re-laid. -/
theorem batchArr_eq (c : Dev nD) :
    batchArr m c = shapeCast S32x512x1024 (m ((c : Thread nD τ).loc main_arg0)) shapeCasts_S32x512x32x32_S32x512x1024 := by
  show StableHlo.after hostOps0 (fun b => m (c, b)) (Proc.devRef .tc main_v0) = _
  after_results
  rfl

/-- The first weight table as the region reads it is the first weight argument transposed. -/
theorem w1tArr_eq (c : Dev nD) :
    w1tArr m c = transpose S512x32 [1, 0] (m ((c : Thread nD τ).loc main_arg1)) transposes_S32x512_S512x32_1_0 := by
  show StableHlo.after hostOps0 (fun b => m (c, b)) (Proc.devRef .tc main_v1) = _
  after_results

/-- The second weight table as the region reads it is the second weight argument transposed. -/
theorem w2tArr_eq (c : Dev nD) :
    w2tArr m c = transpose S32x512 [1, 0] (m ((c : Thread nD τ).loc main_arg3)) transposes_S512x32_S32x512_1_0 := by
  show StableHlo.after hostOps0 (fun b => m (c, b)) (Proc.devRef .tc main_v2) = _
  after_results

/-- The first bias row is the first bias re-laid. -/
theorem b1RowArr_eq (c : Dev nD) :
    b1RowArr m c = shapeCast S1x32 (m ((c : Thread nD τ).loc main_arg2)) shapeCasts_S32_S1x32 := by
  show StableHlo.after hostOps0 (fun b => m (c, b)) (Proc.devRef .tc main_v3) = _
  after_results
  rfl

/-- The second bias row is the second bias re-laid. -/
theorem b2RowArr_eq (c : Dev nD) :
    b2RowArr m c = shapeCast S1x512 (m ((c : Thread nD τ).loc main_arg4)) shapeCasts_S512_S1x512 := by
  show StableHlo.after hostOps0 (fun b => m (c, b)) (Proc.devRef .tc main_v4) = _
  after_results
  rfl

/-! ## The host line after the region -/

/-- The program's result is the output array re-laid. -/
theorem result_eq (c : Dev nD) :
    Pipeline.afterTail₀ cfgs (dats m) 0 (V0 m) [hostOps1] c main_v6
      = shapeCast S32x512x32x32 ((dats m 0 c).arrAt 5 cfg0.N) shapeCasts_S32x512x1024_S32x512x32x32 := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.tc.devRef main_v5)
      = (dats m 0 c).arrAt 5 cfg0.N :=
    Pipeline.withArrays_arr spec0 launch0.win.arr_inj c _ _ 5
  rw [hw]
  rfl

/-! ## The re-layings and transposes read at an entry -/

/-- Plane n of the re-laid batch is image n. -/
theorem planeOf_relaid (X : Batch.Idx → EReal) (h : Batch.ShapeCasts ⟨3, ![32, 512, 1024]⟩) (n : Fin 32) :
    planeOf (shapeCast ⟨3, ![32, 512, 1024]⟩ X h) n = image X n := by
  funext c' p
  show shapeCast ⟨3, ![32, 512, 1024]⟩ X h (ix3 n c' p) = X (ix4 n c' (pixRow p) (pixCol p))
  refine shapeCast_apply X h _ _ ?_
  rw [Shape.rowMajor_val_three, Shape.rowMajor_val_four]
  show ((n.val * 512 + c'.val) * 32 + p.val / 32) * 32 + p.val % 32 = (n.val * 512 + c'.val) * 1024 + p.val
  omega

/-- A transposed table read transposed is the table. -/
theorem tableT_transposed {a b : Nat} (W : (⟨2, ![a, b]⟩ : Shape).Idx → EReal)
    (h : (⟨2, ![a, b]⟩ : Shape).Transposes [1, 0] ⟨2, ![b, a]⟩) :
    tableT (transpose ⟨2, ![b, a]⟩ [1, 0] W h) = table2 W := by
  funext i j
  show transpose ⟨2, ![b, a]⟩ [1, 0] W h (ix2 j i) = W (ix2 i j)
  refine transpose_apply [1, 0] W h (ix2 j i) (ix2 i j) fun d => ?_
  match d with
  | ⟨0, _⟩ => rfl
  | ⟨1, _⟩ => rfl

/-- A bias re-laid as a row, read along the row, is the bias. -/
theorem row_relaid {a : Nat} (B : (⟨1, ![a]⟩ : Shape).Idx → EReal) (h : (⟨1, ![a]⟩ : Shape).ShapeCasts ⟨2, ![1, a]⟩) :
    row (shapeCast ⟨2, ![1, a]⟩ B h) = table1 B := by
  funext i
  show shapeCast ⟨2, ![1, a]⟩ B h (ix2 (0 : Fin 1) i) = B (ix1 i)
  refine shapeCast_apply B h _ _ ?_
  rw [Shape.rowMajor_val_one, Shape.rowMajor_val_two]
  show i.val = 0 * a + i.val
  omega

/-- The output array re-laid as the batch's shape is the squeeze-and-excitation of the arguments. -/
theorem result_value (c : Dev nD) :
    shapeCast S32x512x32x32 (arrayOut (batchArr m c) (w1tArr m c) (b1RowArr m c) (w2tArr m c) (b2RowArr m c))
        shapeCasts_S32x512x1024_S32x512x32x32
      = resultTotal (m ((c : Thread nD τ).loc main_arg0)) (m ((c : Thread nD τ).loc main_arg1))
          (m ((c : Thread nD τ).loc main_arg2)) (m ((c : Thread nD τ).loc main_arg3)) (m ((c : Thread nD τ).loc main_arg4)) := by
  funext i
  obtain ⟨n, c', h, w, rfl⟩ : ∃ (n : Fin 32) (c' : Fin 512) (h w : Fin 32), i = ix4 n c' h w :=
    ⟨i 0, i 1, i 2, i 3, eq_ix4 i⟩
  rw [shapeCast_apply _ shapeCasts_S32x512x1024_S32x512x32x32 (ix4 n c' h w) (ix3 n c' (pixel h w)) (by
    rw [Shape.rowMajor_val_three, Shape.rowMajor_val_four]
    show (n.val * 512 + c'.val) * 1024 + (h.val * 32 + w.val) = ((n.val * 512 + c'.val) * 32 + h.val) * 32 + w.val
    omega)]
  rw [arrayOut_entry, batchArr_eq, planeOf_relaid, w1tArr_eq, w2tArr_eq, b1RowArr_eq, b2RowArr_eq, tableT_transposed,
    tableT_transposed, row_relaid, row_relaid]
  rfl

/-! ## The run -/

/-- Every execution of the program ends with its result at the squeeze-and-excitation of its arguments (the squeeze
    scaled after the sum) and its arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6)
          = resultTotal (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v6 (Pipeline.mem_restRefs_of main_v6 (by decide) (by decide))).trans
        ((result_eq m c).trans ((congrArg (fun A => shapeCast S32x512x32x32 A shapeCasts_S32x512x1024_S32x512x32x32) (final m c)).trans (result_value m c))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.ReferenceIdeal.SeRun

end
-- ==== Proof.lean ====
/-
  Squeeze-and-excitation, two fused row kernels compared.

  Both programs rescale every channel of every image by a gate computed from the channel means:
  y(n, c, h, w) = x(n, c, h, w) · σ(w₂ · max(w₁ · s(n) + b₁, 0) + b₂)(c), s(n)(c) the mean of channel c of image n.
  The kernel lays the batch out as a 16384 × 1024 table, keeps the weights as given and takes the mean as a matrix
  product with the constant column 2⁻¹⁰: s(c) = Σₚ x(c, p) · 2⁻¹⁰.  The reference lays the batch out as
  [32, 512, 1024], transposes the weights, adds a channel's pixels and scales the total: s(c) = (Σₚ x(c, p)) · 2⁻¹⁰,
  and writes each product with the factors in the other order.  On the extended reals multiplication by the finite
  nonnegative 2⁻¹⁰ distributes over any sum and multiplication commutes, so the two results are one function of the
  arguments, whatever the arguments are.  Each program's frame is its region's run; no operation was rewritten by
  the idealization, so nothing is owed for it.
-/
import proofs.«145145_g2000202709259100_pallasbulk_1026_2_alg».proof.Defs
import proofs.«145145_g2000202709259100_pallasbulk_1026_2_alg».proof.Proof.Gen.Kernel
import proofs.«145145_g2000202709259100_pallasbulk_1026_2_alg».proof.Proof.Gen.Kernel.Skeleton
import proofs.«145145_g2000202709259100_pallasbulk_1026_2_alg».proof.Proof.Gen.Kernel.Launch
import proofs.«145145_g2000202709259100_pallasbulk_1026_2_alg».proof.Proof.Gen.Kernel.Points
import proofs.«145145_g2000202709259100_pallasbulk_1026_2_alg».proof.Proof.Gen.Kernel.Frame
import proofs.«145145_g2000202709259100_pallasbulk_1026_2_alg».proof.Proof.Gen.KernelIdeal
import proofs.«145145_g2000202709259100_pallasbulk_1026_2_alg».proof.Proof.Gen.KernelIdeal.Skeleton
import proofs.«145145_g2000202709259100_pallasbulk_1026_2_alg».proof.Proof.Gen.KernelIdeal.Launch
import proofs.«145145_g2000202709259100_pallasbulk_1026_2_alg».proof.Proof.Gen.KernelIdeal.Points
import proofs.«145145_g2000202709259100_pallasbulk_1026_2_alg».proof.Proof.Gen.KernelIdeal.Frame
import proofs.«145145_g2000202709259100_pallasbulk_1026_2_alg».proof.Proof.Gen.ReferenceIdeal
import proofs.«145145_g2000202709259100_pallasbulk_1026_2_alg».proof.Proof.Gen.ReferenceIdeal.Skeleton
import proofs.«145145_g2000202709259100_pallasbulk_1026_2_alg».proof.Proof.Gen.ReferenceIdeal.Launch
import proofs.«145145_g2000202709259100_pallasbulk_1026_2_alg».proof.Proof.Gen.ReferenceIdeal.Points
import proofs.«145145_g2000202709259100_pallasbulk_1026_2_alg».proof.Proof.Gen.ReferenceIdeal.Frame
import proofs.«145145_g2000202709259100_pallasbulk_1026_2_alg».proof.Proof.Gen.Pre_finite_inputs
import proofs.«145145_g2000202709259100_pallasbulk_1026_2_alg».proof.Proof.KernelRun
import proofs.«145145_g2000202709259100_pallasbulk_1026_2_alg».proof.Proof.ReferenceRun

noncomputable section

namespace Cert.Proof

open Idealize.ShloMosaic Idealize.SL.Sem

/-- Each program runs to the end and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- From memories that agree on the arguments both programs end with the squeeze-and-excitation of the arguments:
    the kernel with the squeeze scaled pixel by pixel, the reference with the total scaled, which is the same
    function. -/
theorem algebraic : Cert.algebraic_KernelIdeal_ReferenceIdeal := by
  intro m ρ m' ρ' _ hagree
  refine ⟨_, Cert.KernelIdeal.SeRun.run m ρ, ?_⟩
  refine (θ_run Cert.ReferenceIdeal.defs _ _).mono (fun _ h c => ⟨(h c).1.trans ?_, (h c).2⟩)
    (Cert.ReferenceIdeal.SeRun.run m' ρ')
  rw [(hagree c).1, (hagree c).2.1, (hagree c).2.2.1, (hagree c).2.2.2.1, (hagree c).2.2.2.2]
  exact Cert.SqueezeExcite.resultTotal_eq_resultScaled _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
